-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v13) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S1600000 : Shape := ⟨1, ![1600000]⟩
abbrev S128x128 : Shape := ⟨2, ![128, 128]⟩
abbrev S128 : Shape := ⟨1, ![128]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn {F : FTy → Type} [FloatOps F] (main_arg0 : FVec F S100000x128 .f32) (main_arg1 : IVec S1600000 32) (main_arg2 : IVec S1600000 32) (main_arg3 : FVec F S128x128 .f32) (main_arg4 : FVec F S128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg3
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg4
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  main_v13
-- ==== Kernel.lean ====
abbrev S100000x128 : Shape := ⟨2, ![100000, 128]⟩
abbrev S1600000 : Shape := ⟨1, ![1600000]⟩
abbrev S128x128 : Shape := ⟨2, ![128, 128]⟩
abbrev S128 : Shape := ⟨1, ![128]⟩
abbrev S_ : Shape := ⟨0, ![]⟩
abbrev S1600000x1 : Shape := ⟨2, ![1600000, 1]⟩
abbrev S1600000x128 : Shape := ⟨2, ![1600000, 128]⟩
abbrev S1x128 : Shape := ⟨2, ![1, 128]⟩
abbrev S5000x128 : Shape := ⟨2, ![5000, 128]⟩

abbrev nBuf : Space → Nat
  | .hbm => 20
  | .vmem => 6
  | .smem => 0
  | _ => 0

abbrev bufTy : (tb : Table) → Fin (tcTables nBuf tb) → BufTy
  | .hbm, ⟨0, _⟩ => ⟨S100000x128, .f32⟩
  | .hbm, ⟨1, _⟩ => ⟨S1600000, .i32⟩
  | .hbm, ⟨2, _⟩ => ⟨S1600000, .i32⟩
  | .hbm, ⟨3, _⟩ => ⟨S128x128, .f32⟩
  | .hbm, ⟨4, _⟩ => ⟨S128, .f32⟩
  | .hbm, ⟨5, _⟩ => ⟨S_, .i32⟩
  | .hbm, ⟨6, _⟩ => ⟨S1600000, .i32⟩
  | .hbm, ⟨7, _⟩ => ⟨S1600000, .i1⟩
  | .hbm, ⟨8, _⟩ => ⟨S_, .i32⟩
  | .hbm, ⟨9, _⟩ => ⟨S1600000, .i32⟩
  | .hbm, ⟨10, _⟩ => ⟨S1600000, .i32⟩
  | .hbm, ⟨11, _⟩ => ⟨S1600000, .i32⟩
  | .hbm, ⟨12, _⟩ => ⟨S1600000x1, .i32⟩
  | .hbm, ⟨13, _⟩ => ⟨S1600000x128, .f32⟩
  | .hbm, ⟨14, _⟩ => ⟨S_, .f32⟩
  | .hbm, ⟨15, _⟩ => ⟨S100000x128, .f32⟩
  | .hbm, ⟨16, _⟩ => ⟨S1600000x1, .i32⟩
  | .hbm, ⟨17, _⟩ => ⟨S100000x128, .f32⟩
  | .hbm, ⟨18, _⟩ => ⟨S1x128, .f32⟩
  | .hbm, ⟨19, _⟩ => ⟨S100000x128, .f32⟩
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S1x128, .f32⟩
  | .local _ .vmem, ⟨4, _⟩ => ⟨S5000x128, .f32⟩
  | .local _ .vmem, ⟨5, _⟩ => ⟨S5000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_v0 : Ref sig .tc := ⟨.hbm, 6, rfl⟩
abbrev main_v1 : Ref sig .tc := ⟨.hbm, 7, rfl⟩
abbrev main_c_0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S5000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  shapeCasts_S128_S1x128 : S128.ShapeCasts S1x128
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  transposes_S128x128_p1_0_S128x128 : S128x128.Transposes [1, 0] S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S5000x128_S128x128_S5000x128_1_0_0_1_n_n_wf : DotDims.WF S5000x128 S128x128 S5000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x128.size a ≤ S100000x128.size a
  hwx0_3 : ∀ i : grid0.Coords, EltTy.bits .f32 = 32 ∨ (Rect.block (s := S100000x128) S5000x128.size (cc0_transform_3 i) (hinb0_3 i)).WholeWords (EltTy.packing .f32)

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf

abbrev win0_0 : Pipeline.Window sig grid0 :=
  Pipeline.Window.ofSpec (Memref.whole main_v9) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v10) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v11) S5000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S100000x128 : Shape := ⟨2, ![100000, 128]⟩
abbrev S1600000 : Shape := ⟨1, ![1600000]⟩
abbrev S128x128 : Shape := ⟨2, ![128, 128]⟩
abbrev S128 : Shape := ⟨1, ![128]⟩
abbrev S_ : Shape := ⟨0, ![]⟩
abbrev S1600000x1 : Shape := ⟨2, ![1600000, 1]⟩
abbrev S1600000x128 : Shape := ⟨2, ![1600000, 128]⟩
abbrev S1x128 : Shape := ⟨2, ![1, 128]⟩

abbrev nBuf : Space → Nat
  | .hbm => 22
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S1600000, .i32⟩
  | .hbm, ⟨2, _⟩ => ⟨S1600000, .i32⟩
  | .hbm, ⟨3, _⟩ => ⟨S128x128, .f32⟩
  | .hbm, ⟨4, _⟩ => ⟨S128, .f32⟩
  | .hbm, ⟨5, _⟩ => ⟨S_, .i32⟩
  | .hbm, ⟨6, _⟩ => ⟨S1600000, .i32⟩
  | .hbm, ⟨7, _⟩ => ⟨S1600000, .i1⟩
  | .hbm, ⟨8, _⟩ => ⟨S_, .i32⟩
  | .hbm, ⟨9, _⟩ => ⟨S1600000, .i32⟩
  | .hbm, ⟨10, _⟩ => ⟨S1600000, .i32⟩
  | .hbm, ⟨11, _⟩ => ⟨S1600000, .i32⟩
  | .hbm, ⟨12, _⟩ => ⟨S1600000x1, .i32⟩
  | .hbm, ⟨13, _⟩ => ⟨S1600000x128, .f32⟩
  | .hbm, ⟨14, _⟩ => ⟨S_, .f32⟩
  | .hbm, ⟨15, _⟩ => ⟨S100000x128, .f32⟩
  | .hbm, ⟨16, _⟩ => ⟨S1600000x1, .i32⟩
  | .hbm, ⟨17, _⟩ => ⟨S100000x128, .f32⟩
  | .hbm, ⟨18, _⟩ => ⟨S100000x128, .f32⟩
  | .hbm, ⟨19, _⟩ => ⟨S1x128, .f32⟩
  | .hbm, ⟨20, _⟩ => ⟨S100000x128, .f32⟩
  | .hbm, ⟨21, _⟩ => ⟨S100000x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_v0 : Ref sig .tc := ⟨.hbm, 6, rfl⟩
abbrev main_v1 : Ref sig .tc := ⟨.hbm, 7, rfl⟩
abbrev main_c_0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩

abbrev nD : Nat := 1
abbrev τ : Topo := Topo.v7x

variable {F : FTy → Type} [FloatOps F]

class Facts₀ : Prop where
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S100000x128_S128x128_S100000x128_1_1_0_0_n_n_wf : DotDims.WF S100000x128 S128x128 S100000x128 [1] [1] [0] [0] [] []

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S100000x128_S128x128_S100000x128_1_1_0_0_n_n : DotDims S100000x128 S128x128 S100000x128 where
  lhsContracting := [1]
  rhsContracting := [1]
  lhsNonContracting := [0]
  rhsNonContracting := [0]
  lhsBatch := []
  rhsBatch := []
  wf := dot_S100000x128_S128x128_S100000x128_1_1_0_0_n_n_wf

class Facts : Prop extends Facts₀ where

variable [Facts]
-- ==== Proof.Spec.lean ====
/-
  The dense layer as ONE function of its three operands, on the extended reals: entry (n, o) of the result is the
  sum over the feature axis d of h[n, d] · W[o, d], plus b[o]. The weight is read row by row (the layer multiplies by
  the transpose), and the bias depends on the column only.
-/
import Idealize.ShloMosaic.PureOps.Ideal
import Idealize.ShloMosaic.Lib.ValueIdx

noncomputable section

open scoped BigOperators

namespace Cert.GcnDense

open Idealize.ShloMosaic Idealize.ShloMosaic.ValueIdx

/-- The node-feature matrix's shape, the weight's and the bias's. -/
abbrev SNodes : Shape := ⟨2, ![100000, 128]⟩
abbrev SWeight : Shape := ⟨2, ![128, 128]⟩
abbrev SBias : Shape := ⟨1, ![128]⟩

/-- `dense h W b` at `(n, o)` is `∑ d, h (n, d) * W (o, d) + b o`. -/
def dense (h : SNodes.Idx → EReal) (W : SWeight.Idx → EReal) (b : SBias.Idx → EReal) : SNodes.Idx → EReal :=
  fun i => (∑ d : Fin 128, h (ix2 (i 0 : Fin 100000) d) * W (ix2 (i 1 : Fin 128) d)) + b (ix1 (i 1 : Fin 128))

/-- The same, at an index given by its two coordinates. -/
theorem dense_apply (h : SNodes.Idx → EReal) (W : SWeight.Idx → EReal) (b : SBias.Idx → EReal)
    (n : Fin 100000) (o : Fin 128) :
    dense h W b (ix2 n o) = (∑ d : Fin 128, h (ix2 n d) * W (ix2 o d)) + b (ix1 o) := rfl

end Cert.GcnDense

end
-- ==== Proof.KernelBlocks.lean ====
/-
  The kernel's blocks read where the arrays hold them.

  The grid has 20 points; point t stages rows 5000·t … 5000·t + 4999 of the neighbour sum, the whole weight and the
  whole bias row, and writes back the same rows of the result. So entry (p, k) of the feature block at point t is the
  neighbour sum at (5000·t + p, k), the weight block is the weight, the bias block the bias row, and entry (p, q) of
  the result block sits at (5000·t + p, q) of the result array. Each fact is first stated for ANY contents of the
  array (a block is a view of its array, whatever the array holds) and then read at the arrays the region finds.
-/
import proofs.«171868_j56341380989305_1_alg».proof.Proof.Gen.KernelIdeal.Value
import proofs.«171868_j56341380989305_1_alg».proof.Proof.Spec
import Idealize.ShloMosaic.Lib.ValueIdx

set_option maxRecDepth 16384

noncomputable section

open scoped BigOperators

namespace Cert.KernelIdeal.Whole

open Cert.KernelIdeal Cert.KernelIdeal.Gen Cert.KernelIdeal.Value Idealize.ShloMosaic Idealize.ShloMosaic.TcCoe Idealize.SL.Sem
open Idealize.ShloMosaic.StableHlo Idealize.ShloMosaic.ValueIdx
open Idealize.ShloMosaic.Pipeline (Dat)

variable (m : (ℓ : Loc nD τ sig) → Buf (Elt Ideal) ℓ) (ρ : Dev nD → PrngReg)

theorem hz : (![0, 0] : Fin 2 → Nat) = fun _ => 0 := funext fun a => by fin_cases a <;> rfl

/-! ## The arrays as the region finds them -/

/-- The neighbour sum, the weight and the bias row when the region is entered: the arrays of windows 0, 1 and 2. -/
abbrev hArr (c : Dev nD) : S100000x128.Idx → EReal := V m c (Pipeline.arrRef spec0 0)
abbrev wArr (c : Dev nD) : S128x128.Idx → EReal := V m c (Pipeline.arrRef spec0 1)
abbrev bRow (c : Dev nD) : S1x128.Idx → EReal := V m c (Pipeline.arrRef spec0 2)

/-- The dense layer of those three: what the result array ends holding. -/
def G (c : Dev nD) : S100000x128.Idx → EReal :=
  Cert.GcnDense.dense (hArr m c) (wArr m c) (fun j => bRow m c (ix2 (0 : Fin 1) (j 0 : Fin 128)))

/-! ## The index maps, decided over the 20 points -/

/-- The feature window moves with the result window along the rows and stays at column block 0; the weight and the
    bias row never move; the result's row block index is at most 19. -/
theorem idx_facts : ∀ t : Fin cfg0.N,
    win0_0.index t (0 : Fin 2) = win0_3.index t (0 : Fin 2) ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) ≤ 19 ∧ win0_3.index t (1 : Fin 2) = 0 :=
  (by decide +kernel : ∀ t : Fin grid0.N, _)

/-- Every row block is some point's. -/
theorem idx_onto : ∀ q0 : Fin 20, ∃ t : Fin cfg0.N, win0_3.index t = ![q0.val, 0] :=
  (by decide +kernel : ∀ q0 : Fin 20, ∃ t : Fin grid0.N, win0_3.index t = ![q0.val, 0])

/-- Row p of point t's block is this row of the array. -/
def row (t : Fin cfg0.N) (p : Fin 5000) : Fin 100000 :=
  ⟨win0_3.index t (0 : Fin 2) * 5000 + p.val, by
    have h := (idx_facts t).2.2.2.2.2.2.1
    have hp := p.isLt
    omega⟩

/-! ## Where a block's entry sits in its array -/

theorem emb0 (t : Fin cfg0.N) (p : Fin 5000) (k : Fin 128) :
    ((cfg0.win 0).blk t).view.emb (ix2 p k) = (ix2 (row t p) k : S100000x128.Idx) := by
  obtain ⟨e0, e1, -⟩ := idx_facts t
  refine funext fun a => Fin.ext ?_
  match a with
  | ⟨0, _⟩ => show win0_0.index t (0 : Fin 2) * 5000 + 1 * p.val = win0_3.index t (0 : Fin 2) * 5000 + p.val; omega
  | ⟨1, _⟩ => show win0_0.index t (1 : Fin 2) * 128 + 1 * k.val = k.val; omega

theorem emb1 (t : Fin cfg0.N) (q k : Fin 128) :
    ((cfg0.win 1).blk t).view.emb (ix2 q k) = (ix2 q k : S128x128.Idx) := by
  obtain ⟨-, -, e0, e1, -⟩ := idx_facts t
  refine funext fun a => Fin.ext ?_
  match a with
  | ⟨0, _⟩ => show win0_1.index t (0 : Fin 2) * 128 + 1 * q.val = q.val; omega
  | ⟨1, _⟩ => show win0_1.index t (1 : Fin 2) * 128 + 1 * k.val = k.val; omega

theorem emb2 (t : Fin cfg0.N) (q : Fin 128) :
    ((cfg0.win 2).blk t).view.emb (ix2 (0 : Fin 1) q) = (ix2 (0 : Fin 1) q : S1x128.Idx) := by
  obtain ⟨-, -, -, -, e0, e1, -⟩ := idx_facts t
  refine funext fun a => Fin.ext ?_
  match a with
  | ⟨0, _⟩ => show win0_2.index t (0 : Fin 2) * 1 + 1 * 0 = 0; omega
  | ⟨1, _⟩ => show win0_2.index t (1 : Fin 2) * 128 + 1 * q.val = q.val; omega

theorem emb3 (t : Fin cfg0.N) (p : Fin 5000) (q : Fin 128) :
    ((cfg0.win 3).blk t).view.emb (ix2 p q) = (ix2 (row t p) q : S100000x128.Idx) := by
  obtain ⟨-, -, -, -, -, -, -, e1⟩ := idx_facts t
  refine funext fun a => Fin.ext ?_
  match a with
  | ⟨0, _⟩ => show win0_3.index t (0 : Fin 2) * 5000 + 1 * p.val = win0_3.index t (0 : Fin 2) * 5000 + p.val; omega
  | ⟨1, _⟩ => show win0_3.index t (1 : Fin 2) * 128 + 1 * q.val = q.val; omega

/-! ## A block of ANY array contents, read at an entry -/

theorem blk0_read (A : S100000x128.Idx → EReal) (t : Fin cfg0.N) (p : Fin 5000) (k : Fin 128) :
    ((cfg0.win 0).blk t).view.read (Elt Ideal) A (ix2 p k) = A (ix2 (row t p) k) := by
  show A (((cfg0.win 0).blk t).view.emb (ix2 p k)) = _
  rw [emb0 t p k]

theorem blk1_read (A : S128x128.Idx → EReal) (t : Fin cfg0.N) (q k : Fin 128) :
    ((cfg0.win 1).blk t).view.read (Elt Ideal) A (ix2 q k) = A (ix2 q k) := by
  show A (((cfg0.win 1).blk t).view.emb (ix2 q k)) = _
  rw [emb1 t q k]

theorem blk2_read (A : S1x128.Idx → EReal) (t : Fin cfg0.N) (q : Fin 128) :
    ((cfg0.win 2).blk t).view.read (Elt Ideal) A (ix2 (0 : Fin 1) q) = A (ix2 (0 : Fin 1) q) := by
  show A (((cfg0.win 2).blk t).view.emb (ix2 (0 : Fin 1) q)) = _
  rw [emb2 t q]

theorem blk3_read (A : S100000x128.Idx → EReal) (t : Fin cfg0.N) (p : Fin 5000) (q : Fin 128) :
    ((cfg0.win 3).blk t).view.read (Elt Ideal) A (ix2 p q) = A (ix2 (row t p) q) := by
  show A (((cfg0.win 3).blk t).view.emb (ix2 p q)) = _
  rw [emb3 t p q]

/-- What a write-back takes of a whole block's contents is the contents (the blocks tile the array: none is cut). -/
theorem cut3 (X : S5000x128.Idx → EReal) (t : Fin cfg0.N) (p : Fin 5000) (q : Fin 128) :
    (cfg0.win 3).cut (grid0.coords t) X (ix2 p q) = X (ix2 p q) := rfl

/-! ## The staged blocks at the arrays the region finds -/

/-- Entry (p, k) of the feature block at point t is the neighbour sum at (row t p, k). -/
theorem read0 (c : Dev nD) (t : Fin cfg0.N) (p : Fin 5000) (k : Fin 128) :
    (iblk m c 0 t : S5000x128.Idx → EReal) (ix2 p k) = hArr m c (ix2 (row t p) k) := by
  unfold iblk
  exact blk0_read (hArr m c) t p k

/-- The weight block is the whole weight. -/
theorem read1 (c : Dev nD) (t : Fin cfg0.N) (q k : Fin 128) :
    (iblk m c 1 t : S128x128.Idx → EReal) (ix2 q k) = wArr m c (ix2 q k) := by
  unfold iblk
  exact blk1_read (wArr m c) t q k

/-- The bias block is the whole bias row. -/
theorem read2 (c : Dev nD) (t : Fin cfg0.N) (q : Fin 128) :
    (iblk m c 2 t : S1x128.Idx → EReal) (ix2 (0 : Fin 1) q) = bRow m c (ix2 (0 : Fin 1) q) := by
  unfold iblk
  exact blk2_read (bRow m c) t q

end Cert.KernelIdeal.Whole

end
-- ==== Proof.LibPlainDot.lean ====
/-
  General facts about the shapes a row-wise dense layer meets, on the extended reals: a rows-by-columns matrix product
  read at one entry as a sum over the shared axis; a column broadcast across the columns; a bias vector laid along the
  rows.
-/
import Idealize.ShloMosaic.PureOps.Ideal
import Idealize.ShloMosaic.PureOps.Ideal.Laws
import Idealize.ShloMosaic.Lib.ValueIdx
import Idealize.ShloMosaic.Lib.ValueLayout
import Idealize.ShloMosaic.Lib.Pipeline.Value

noncomputable section

open scoped BigOperators

namespace Cert.LibPlainDot

open Idealize.ShloMosaic Idealize.ShloMosaic.ValueIdx

/-- The contraction sum of an `M×K` by `K×N` product at entry `(p, j)` is `∑ₖ l(p,k)·r(k,j)`: the one contracted axis
    is re-indexed by its coordinate; the left operand is read at the entry's row and the right at its column (the four
    hypotheses say so of the dimension numbers, coordinate by coordinate). -/
theorem sum_plain {M K N : Nat} (D : DotDims ⟨2, ![M, K]⟩ ⟨2, ![K, N]⟩ ⟨2, ![M, N]⟩)
    (hr : D.contr.rank = 1) (hs : D.contr.size ⟨0, by omega⟩ = K)
    (hl0 : ∀ (i : (⟨2, ![M, N]⟩ : Shape).Idx) (q : D.contr.Idx), (D.lhsIdx i q 0).val = (i 0).val)
    (hl1 : ∀ (i : (⟨2, ![M, N]⟩ : Shape).Idx) (q : D.contr.Idx), (D.lhsIdx i q 1).val = (q ⟨0, by omega⟩).val)
    (hr0 : ∀ (i : (⟨2, ![M, N]⟩ : Shape).Idx) (q : D.contr.Idx), (D.rhsIdx i q 0).val = (q ⟨0, by omega⟩).val)
    (hr1 : ∀ (i : (⟨2, ![M, N]⟩ : Shape).Idx) (q : D.contr.Idx), (D.rhsIdx i q 1).val = (i 1).val)
    (l : (⟨2, ![M, K]⟩ : Shape).Idx → EReal) (r : (⟨2, ![K, N]⟩ : Shape).Idx → EReal) (p : Fin M) (j : Fin N) :
    ∑ q : D.contr.Idx, l (D.lhsIdx (ix2 p j) q) * r (D.rhsIdx (ix2 p j) q) = ∑ k : Fin K, l (ix2 p k) * r (ix2 k j) := by
  rw [← Equiv.sum_comp (contrEquiv1 D K hr hs).symm]
  refine Finset.sum_congr rfl fun k _ => ?_
  have hk := contrEquiv1_symm_val D K hr hs k
  have el : D.lhsIdx (ix2 p j) ((contrEquiv1 D K hr hs).symm k) = ix2 p k := funext fun a => Fin.ext (by
    match a with
    | ⟨0, _⟩ => exact hl0 _ _
    | ⟨1, _⟩ => exact (hl1 _ _).trans hk)
  have er : D.rhsIdx (ix2 p j) ((contrEquiv1 D K hr hs).symm k) = ix2 k j := funext fun a => Fin.ext (by
    match a with
    | ⟨0, _⟩ => exact (hr0 _ _).trans hk
    | ⟨1, _⟩ => exact hr1 _ _)
  rw [el, er]

/-- A matrix product accumulated into zeros, read at entry `(p, j)`. -/
theorem matmul_plain_apply {M K N : Nat} (D : DotDims ⟨2, ![M, K]⟩ ⟨2, ![K, N]⟩ ⟨2, ![M, N]⟩)
    (hr : D.contr.rank = 1) (hs : D.contr.size ⟨0, by omega⟩ = K)
    (hl0 : ∀ (i : (⟨2, ![M, N]⟩ : Shape).Idx) (q : D.contr.Idx), (D.lhsIdx i q 0).val = (i 0).val)
    (hl1 : ∀ (i : (⟨2, ![M, N]⟩ : Shape).Idx) (q : D.contr.Idx), (D.lhsIdx i q 1).val = (q ⟨0, by omega⟩).val)
    (hr0 : ∀ (i : (⟨2, ![M, N]⟩ : Shape).Idx) (q : D.contr.Idx), (D.rhsIdx i q 0).val = (q ⟨0, by omega⟩).val)
    (hr1 : ∀ (i : (⟨2, ![M, N]⟩ : Shape).Idx) (q : D.contr.Idx), (D.rhsIdx i q 1).val = (i 1).val)
    (prec : Option ContractPrecision)
    (l : FVec Ideal ⟨2, ![M, K]⟩ .f32) (r : FVec Ideal ⟨2, ![K, N]⟩ .f32) (p : Fin M) (j : Fin N) :
    FloatOps.matmul D prec l r (constant (F := Ideal) ⟨2, ![M, N]⟩ .f32 0x00000000#32) (ix2 p j)
      = ∑ k : Fin K, l (ix2 p k) * r (ix2 k j) := by
  rw [Ideal.matmul_constant_zero_apply]
  exact sum_plain D hr hs hl0 hl1 hr0 hr1 l r p j

variable {α : Type}

/-- An `[a, 1]` column broadcast to `[a, b]` reads, at `(p, c)`, the column's entry of row `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A bias vector `[b]` viewed as one row `[1, b]` and laid along `a` rows reads, at `(p, c)`, its entry `c`. -/
theorem bias_row_apply {a b : ℕ} (x : (⟨1, ![b]⟩ : Shape).Idx → α)
    (h : (⟨1, ![b]⟩ : Shape).ShapeCasts ⟨2, ![1, b]⟩) (h' : (⟨2, ![1, b]⟩ : Shape).Broadcasts ⟨2, ![a, b]⟩)
    (p : Fin a) (c : Fin b) :
    broadcastTo ⟨2, ![a, b]⟩ (shapeCast ⟨2, ![1, b]⟩ x h) h' (ix2 p c) = x (ix1 c) := by
  rw [broadcastTo_1b_ab_apply, shapeCast_a_1a_apply]

/-- The word of all zero bits is the real number zero. -/
theorem scalar_zero : (Scalar.ofBits (F := Ideal) .f32 0x00000000#32 : Ideal .f32) = (0 : EReal) :=
  Ideal.ofBits_zero_f32

end Cert.LibPlainDot

end
-- ==== Proof.KernelPay.lean ====
/-
  The value the body stores, at one entry of its 5000×128 block, on the extended reals.

  The body narrows the feature block and the weight to bf16 (the identity on extended reals), transposes the weight,
  multiplies into a zero accumulator, and adds the bias row laid along the block's rows. So entry (p, q) is
  the sum over the feature axis k of x(p, k) · w(q, k) — the transposed weight at (k, q) is the weight at (q, k) —
  plus the bias row's entry q.
-/
import proofs.«171868_j56341380989305_1_alg».proof.Proof.Gen.KernelIdeal.Skeleton
import proofs.«171868_j56341380989305_1_alg».proof.Proof.LibPlainDot
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.Pay

open Cert.KernelIdeal Cert.KernelIdeal.Gen Idealize.ShloMosaic Idealize.ShloMosaic.ValueIdx

/-! ## The product's dimension numbers, axis by axis

The left operand's axis 0 is the result's row and its axis 1 the contracted one; the right operand's axis 0 is the
contracted one and its axis 1 the result's column. -/

theorem lhs_row (i : S5000x128.Idx) (q : dot_S5000x128_S128x128_S5000x128_1_0_0_1_n_n.contr.Idx) :
    (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl

theorem lhs_contr (i : S5000x128.Idx) (q : dot_S5000x128_S128x128_S5000x128_1_0_0_1_n_n.contr.Idx) :
    (dot_S5000x128_S128x128_S5000x128_1_0_0_1_n_n.lhsIdx i q 1).val = (q ⟨0, by decide⟩).val :=
  dot_S5000x128_S128x128_S5000x128_1_0_0_1_n_n.lhsIdx_val_of_single rfl i q

theorem rhs_contr (i : S5000x128.Idx) (q : dot_S5000x128_S128x128_S5000x128_1_0_0_1_n_n.contr.Idx) :
    (dot_S5000x128_S128x128_S5000x128_1_0_0_1_n_n.rhsIdx i q 0).val = (q ⟨0, by decide⟩).val :=
  dot_S5000x128_S128x128_S5000x128_1_0_0_1_n_n.rhsIdx_val_of_single rfl i q

theorem rhs_col (i : S5000x128.Idx) (q : dot_S5000x128_S128x128_S5000x128_1_0_0_1_n_n.contr.Idx) :
    (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- The block product into zeros, at entry (p, q): the sum over k of l(p, k) · r(k, q). -/
theorem matmul_entry (l : FVec Ideal S5000x128 .bf16) (r : FVec Ideal S128x128 .bf16) (p : Fin 5000) (q : Fin 128) :
    matmul dot_S5000x128_S128x128_S5000x128_1_0_0_1_n_n none l r (constant (F := Ideal) S5000x128 .f32 0x00000000#32) (ix2 p q)
      = ∑ k : Fin 128, l (ix2 p k) * r (ix2 k q) := by
  show FloatOps.matmul _ _ _ _ _ _ = _
  rw [Ideal.matmul_constant_zero_apply]
  exact Cert.LibPlainDot.sum_plain dot_S5000x128_S128x128_S5000x128_1_0_0_1_n_n rfl rfl lhs_row lhs_contr rhs_contr rhs_col l r p q

/-- THE STORED VALUE at entry (p, q): the row p of the feature block against the row q of the weight, plus the
    bias row's entry q. -/
theorem pay_entry (x0 : Vec Ideal S5000x128 .f32) (x1 : Vec Ideal S128x128 .f32) (x2 : Vec Ideal S1x128 .f32)
    (p : Fin 5000) (q : Fin 128) :
    k0_pay1 (F := Ideal) x0 x1 x2 (ix2 p q)
      = (∑ k : Fin 128, x0 (ix2 p k) * x1 (ix2 q k)) + x2 (ix2 (0 : Fin 1) q) := by
  unfold k0_pay1
  dsimp only
  rw [addf_apply, matmul_entry, broadcastTo_1b_ab_apply, shapeCast_self, shapeCast_self]
  congr 1
  refine Finset.sum_congr rfl fun k _ => ?_
  rw [truncf_apply, transpose_ix2_apply, truncf_apply]

end Cert.KernelIdeal.Pay

end
-- ==== Proof.KernelFlush.lean ====
/-
  What each grid point writes back, and the result array after the run.

  Point t writes, at (p, q) of its block, the body's stored value: row p of its feature block against row q of the
  weight, plus the bias at q. Reading the three blocks where the arrays hold them, that is the dense-layer function
  at (5000·t + p, q), which is where the entry lands in the result array. The 20 blocks cover all 100000 rows
  (row r is in the block of the point whose row block is r / 5000), so the array ends holding the dense-layer function
  of the region-entry arrays everywhere.
-/
import proofs.«171868_j56341380989305_1_alg».proof.Proof.KernelBlocks
import proofs.«171868_j56341380989305_1_alg».proof.Proof.KernelPay

set_option maxRecDepth 16384

noncomputable section

open scoped BigOperators

namespace Cert.KernelIdeal.Whole

open Cert.KernelIdeal Cert.KernelIdeal.Gen Cert.KernelIdeal.Value Idealize.ShloMosaic Idealize.ShloMosaic.TcCoe Idealize.SL.Sem
open Idealize.ShloMosaic.StableHlo Idealize.ShloMosaic.ValueIdx
open Idealize.ShloMosaic.Pipeline (Dat)

variable (m : (ℓ : Loc nD τ sig) → Buf (Elt Ideal) ℓ) (ρ : Dev nD → PrngReg)

/-- WHAT POINT t WRITES BACK is block t of the dense-layer function. -/
theorem flushed_eq (c : Dev nD) (t : Fin cfg0.N) :
    (dats m 0 c).flushed 3 t = ((cfg0.win 3).blk t).view.read (Elt Ideal) (G m c) := by
  rw [Value.flushed3]
  unfold out0_3
  rw [View.canon_unit_zero hz]
  simp only [View.ld_unit_zero (S := S5000x128) hz, View.ld_unit_zero (S := S128x128) hz, View.ld_unit_zero (S := S1x128) hz]
  funext j
  obtain ⟨p, q, rfl⟩ : ∃ (p : Fin 5000) (q : Fin 128), j = ix2 p q := ⟨j 0, j 1, eq_ix2 j⟩
  refine (cut3 _ t p q).trans ?_
  refine Eq.trans ?_ (blk3_read (G m c) t p q).symm
  refine (Pay.pay_entry (iblk m c 0 t) (iblk m c 1 t) (iblk m c 2 t) p q).trans ?_
  unfold G
  rw [Cert.GcnDense.dense_apply]
  refine congrArg₂ (· + ·) (Finset.sum_congr rfl fun k _ => ?_) (read2 m c t q)
  rw [read0 m c t p k, read1 m c t q k]

/-- An index of the array is in point t's block iff each coordinate is in the block's range on its axis. -/
theorem mem_blk (t : Fin cfg0.N) (i : S100000x128.Idx) :
    i ∈ ((cfg0.win 3).blk t).view.set ↔ ∀ a : Fin 2, win0_3.index t a * S5000x128.size a ≤ (i a).val ∧ (i a).val < win0_3.index t a * S5000x128.size a + S5000x128.size a := by
  show i ∈ ((View.whole main_v11).slice (win0_3.rect t)).set ↔ _
  rw [View.set_slice_whole, Rect.mem_set_unit]
  exact Iff.rfl

/-- THE COVER: row r is in the block of the point whose row block is r / 5000. -/
theorem cover (i : S100000x128.Idx) :
    ∃ t : Fin cfg0.N, (cfg0.win 3).flush t = true ∧ i ∈ ((cfg0.win 3).blk t).view.set := by
  have hi0 : (i 0).val < 100000 := (i 0).isLt
  have hi1 : (i 1).val < 128 := (i 1).isLt
  obtain ⟨t, ht⟩ := idx_onto ⟨(i 0).val / 5000, by omega⟩
  have q0 : win0_3.index t (0 : Fin 2) = (i 0).val / 5000 := congrFun ht 0
  have q1 : win0_3.index t (1 : Fin 2) = 0 := congrFun ht 1
  refine ⟨t, flush0_3 t, ?_⟩
  rw [mem_blk]
  intro a
  match a with
  | ⟨0, _⟩ => show win0_3.index t (0 : Fin 2) * 5000 ≤ (i 0).val ∧ (i 0).val < win0_3.index t (0 : Fin 2) * 5000 + 5000; omega
  | ⟨1, _⟩ => show win0_3.index t (1 : Fin 2) * 128 ≤ (i 1).val ∧ (i 1).val < win0_3.index t (1 : Fin 2) * 128 + 128; omega

/-- THE ARRAY after the run is the dense-layer function of the region-entry arrays. -/
theorem final (c : Dev nD) : (dats m 0 c).arrAt 3 cfg0.N = G m c :=
  (dats m 0 c).arrAt_eq_of_cover 3 (G m c) (fun t _ => flushed_eq m c t) cover

end Cert.KernelIdeal.Whole

end
-- ==== Proof.Neigh.lean ====
/-
  The neighbour sum both programs compute before the dense layer, as ONE term of the three graph inputs: the source
  indices are wrapped once (a negative index counts from the end), the feature rows of the sources are gathered, one
  row per edge, and the rows are added into a zero matrix at the destination indices. Both programs print these host
  operations alike, so their results are this term word for word; nothing here opens it.
-/
import proofs.«171868_j56341380989305_1_alg».proof.Proof.Gen.KernelIdeal

noncomputable section

namespace Cert.KernelIdeal.Nbr

open Cert.KernelIdeal Cert.KernelIdeal.Gen Idealize.ShloMosaic

variable {F : FTy → Type} [FloatOps F]

/-- `neigh feature src dst`: row n is the sum, over the edges whose destination is n, of the feature row of the
    edge's source. -/
def neigh (feature : (⟨S100000x128, .f32⟩ : BufTy).Contents (Elt F)) (src dst : (⟨S1600000, .i32⟩ : BufTy).Contents (Elt F)) :
    (⟨S100000x128, .f32⟩ : BufTy).Contents (Elt F) :=
  Host.scatterAdd scatter_S100000x128_S1600000x1_S1600000x128_1_0_0_1
    (broadcastInDim S100000x128 ![] bcast_S_S100000x128 (constant S_ .f32 0x00000000#32))
    (broadcastInDim S1600000x1 ![0] bcast_S1600000_S1600000x1_0 dst)
    (Host.gather gather_S100000x128_S1600000x1_S1600000x128_1_0_n_n_0_1_1128 feature
      (broadcastInDim S1600000x1 ![0] bcast_S1600000_S1600000x1_0
        (select (cmpi .slt src (broadcastInDim S1600000 ![] bcast_S_S1600000 (constantI S_ 32 0#32)))
          (addi src (broadcastInDim S1600000 ![] bcast_S_S1600000 (constantI S_ 32 100000#32))) src)))

end Cert.KernelIdeal.Nbr

end
-- ==== Proof.KernelEntry.lean ====
/-
  The arrays the region finds, as functions of the program's inputs.

  Before the region the host operations leave: in the first window's array the neighbour sum, which is the shared
  neighbour term of the three graph inputs, operation for operation; the weight untouched; and in the third window's
  array the bias viewed as one row, whose entry (0, q) is the bias's entry q. So the dense-layer function of the
  region-entry arrays is the dense layer of the inputs' neighbour sum, the weight and the bias.
-/
import proofs.«171868_j56341380989305_1_alg».proof.Proof.KernelBlocks
import proofs.«171868_j56341380989305_1_alg».proof.Proof.Neigh
import Idealize.ShloMosaic.Lib.StableHlo.Run
import Idealize.ShloMosaic.Lib.ValueLayout

set_option maxRecDepth 16384

noncomputable section

open scoped BigOperators

namespace Cert.KernelIdeal.Whole

open Cert.KernelIdeal Cert.KernelIdeal.Gen Cert.KernelIdeal.Value Idealize.ShloMosaic Idealize.ShloMosaic.TcCoe Idealize.SL.Sem
open Idealize.ShloMosaic.StableHlo Idealize.ShloMosaic.ValueIdx
open Idealize.ShloMosaic.Pipeline (Dat)

variable (m : (ℓ : Loc nD τ sig) → Buf (Elt Ideal) ℓ) (ρ : Dev nD → PrngReg)

/-- The host operations before the region leave the shared neighbour term of the three graph inputs. -/
theorem hArr_eq (c : Dev nD) :
    hArr m c = Nbr.neigh (F := Ideal) (m ((c : Thread nD τ).loc main_arg0)) (m ((c : Thread nD τ).loc main_arg1)) (m ((c : Thread nD τ).loc main_arg2)) := by
  show V m c main_v9 = _
  unfold Nbr.neigh
  dsimp only [V, hostOps0]
  after_results

/-- The bias row is the bias viewed as one row: entry (0, q) is entry q. -/
theorem bRow_apply (c : Dev nD) (u : Fin 1) (q : Fin 128) :
    bRow m c (ix2 u q) = (m ((c : Thread nD τ).loc main_arg4) : S128.Idx → EReal) (ix1 q) := by
  have e : bRow m c = shapeCast S1x128 (m ((c : Thread nD τ).loc main_arg4) : S128.Idx → EReal) shapeCasts_S128_S1x128 := by
    show V m c main_v10 = _
    dsimp only [V, hostOps0]
    after_results
    rfl
  rw [e, shapeCast_a_1a_apply]

/-- So the result is the dense layer of the inputs' neighbour sum, the weight and the bias. -/
theorem G_eq (c : Dev nD) :
    G m c = Cert.GcnDense.dense
      (Nbr.neigh (F := Ideal) (m ((c : Thread nD τ).loc main_arg0)) (m ((c : Thread nD τ).loc main_arg1)) (m ((c : Thread nD τ).loc main_arg2)))
      (m ((c : Thread nD τ).loc main_arg3)) (m ((c : Thread nD τ).loc main_arg4)) := by
  have eb : (fun j : Cert.GcnDense.SBias.Idx => bRow m c (ix2 (0 : Fin 1) (j 0 : Fin 128)))
      = (m ((c : Thread nD τ).loc main_arg4) : S128.Idx → EReal) := by
    funext j
    obtain ⟨q, rfl⟩ : ∃ q : Fin 128, j = ix1 q := ⟨j 0, eq_ix1 j⟩
    exact bRow_apply m c 0 q
  have ew : wArr m c = m ((c : Thread nD τ).loc main_arg3) := V_main_arg3 m c
  unfold G
  rw [eb, hArr_eq, ew]

end Cert.KernelIdeal.Whole

end
-- ==== Proof.KernelValue.lean ====
/-
  The idealized kernel's run, read: every weakly fair execution ends with the result array holding the dense layer of
  the inputs' neighbour sum, the weight and the bias, and with the inputs as they were. It is the generated run, whose
  result array is named block by block, followed by the two facts about that array: it is the dense-layer function
  of the region-entry arrays, and those arrays are the stated functions of the inputs.
-/
import proofs.«171868_j56341380989305_1_alg».proof.Proof.KernelFlush
import proofs.«171868_j56341380989305_1_alg».proof.Proof.KernelEntry

set_option maxRecDepth 16384

noncomputable section

open scoped BigOperators

namespace Cert.KernelIdeal.Whole

open Cert.KernelIdeal Cert.KernelIdeal.Gen Cert.KernelIdeal.Value Idealize.ShloMosaic Idealize.ShloMosaic.TcCoe Idealize.SL.Sem
open Idealize.ShloMosaic.StableHlo Idealize.ShloMosaic.ValueIdx
open Idealize.ShloMosaic.Pipeline (Dat)

variable (m : (ℓ : Loc nD τ sig) → Buf (Elt Ideal) ℓ) (ρ : Dev nD → PrngReg)

/-- Every weakly fair execution of the idealized kernel ends with the result array at the dense layer of the inputs'
    neighbour sum, and the inputs as they were. -/
theorem run : θ_run defs (onTc (τ := τ) (main (F := Ideal))) ⟨m, fun _ => 0, ρ⟩ fun r => ∀ c : Dev nD,
      r.2.mem ((c : Thread nD τ).loc main_v11) = Cert.GcnDense.dense
        (Nbr.neigh (F := Ideal) (m ((c : Thread nD τ).loc main_arg0)) (m ((c : Thread nD τ).loc main_arg1)) (m ((c : Thread nD τ).loc main_arg2)))
        (m ((c : Thread nD τ).loc main_arg3)) (m ((c : Thread nD τ).loc main_arg4))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans ((final m c).trans (G_eq m c)), (h c).2⟩)
    (Value.run_blocks m ρ)

end Cert.KernelIdeal.Whole

end
-- ==== Proof.RefValue.lean ====
/-
  The reference's result as the dense-layer function of the neighbour sum.

  Its last operations are a contraction of the neighbour sum's feature axis against the weight's second axis, and the
  addition of the bias laid along the rows. Read at an entry (n, o): the contraction is the sum over k of
  h(n, k) · W(o, k), and the twice-broadcast bias is b(o). That is the dense-layer function, entry by entry; no law of
  the extended reals is used. The neighbour sum itself is the shared term, by unfolding.
-/
import proofs.«171868_j56341380989305_1_alg».proof.Proof.Gen.ReferenceIdeal.Read
import proofs.«171868_j56341380989305_1_alg».proof.Proof.Spec
import proofs.«171868_j56341380989305_1_alg».proof.Proof.Neigh

noncomputable section

open scoped BigOperators

namespace Cert.ReferenceIdeal.RefValue

open Cert.ReferenceIdeal Cert.ReferenceIdeal.Gen Cert.ReferenceIdeal.Read Idealize.ShloMosaic Idealize.ShloMosaic.ValueIdx

/-- The contraction reads the left operand at (n, k), -/
theorem lidx_eq (n : Fin 100000) (o k : Fin 128) : lidx_main_v10 (ix2 n o) k = ix2 n k :=
  funext fun a => Fin.ext (by match a with | ⟨0, _⟩ => rfl | ⟨1, _⟩ => rfl)

/-- and the right operand at (o, k): the weight's row o. -/
theorem ridx_eq (n : Fin 100000) (o k : Fin 128) : ridx_main_v10 (ix2 n o) k = ix2 o k :=
  funext fun a => Fin.ext (by match a with | ⟨0, _⟩ => rfl | ⟨1, _⟩ => rfl)

/-- The bias, made a row and then laid along the rows, is read at the entry's column. -/
theorem bias_idx_eq (n : Fin 100000) (o : Fin 128) : idx_main_v11 (idx_main_v12 (ix2 n o)) = ix1 o :=
  funext fun a => Fin.ext (by match a with | ⟨0, _⟩ => rfl)

/-- THE REFERENCE'S RESULT is the dense layer of its neighbour sum, its weight and its bias. -/
theorem result_eq (x0 : (⟨S100000x128, .f32⟩ : BufTy).Contents (Elt Ideal)) (x1 x2 : (⟨S1600000, .i32⟩ : BufTy).Contents (Elt Ideal))
    (x3 : (⟨S128x128, .f32⟩ : BufTy).Contents (Elt Ideal)) (x4 : (⟨S128, .f32⟩ : BufTy).Contents (Elt Ideal)) :
    val_main_v13 (F := Ideal) x0 x1 x2 x3 x4 = Cert.GcnDense.dense (val_main_v9 (F := Ideal) x0 x1 x2) x3 x4 := by
  funext i
  obtain ⟨n, o, rfl⟩ : ∃ (n : Fin 100000) (o : Fin 128), i = ix2 n o := ⟨i 0, i 1, eq_ix2 i⟩
  rw [val_main_v13_apply, val_main_v10_apply, val_main_v12_apply, val_main_v11_apply, Cert.GcnDense.dense_apply, bias_idx_eq]
  simp only [lidx_eq, ridx_eq, Ideal.addf_def]

/-- The reference's neighbour sum is the shared term: the same operations over the same dimension numbers. -/
theorem neigh_eq {F : FTy → Type} [FloatOps F] (x0 : (⟨S100000x128, .f32⟩ : BufTy).Contents (Elt F)) (x1 x2 : (⟨S1600000, .i32⟩ : BufTy).Contents (Elt F)) :
    val_main_v9 (F := F) x0 x1 x2 = Cert.KernelIdeal.Nbr.neigh (F := F) x0 x1 x2 := rfl

end Cert.ReferenceIdeal.RefValue

end
-- ==== Proof.lean ====
/-
  A graph-convolution layer: the neighbour sum of the node features (a gather of the source rows and a
  scatter-add at the destinations, host operations in both programs) followed by a dense layer
  out[n, o] = ∑ d, h[n, d] · W[o, d] + b[o].

  The kernel computes the dense layer block by block: 20 blocks of 5000 rows, each the product of its rows (narrowed
  to bf16, the identity on the extended reals) with the transposed weight into a zero accumulator, plus the bias row.
  The reference contracts the whole neighbour sum against the weight's second axis and adds the broadcast bias.
  Entry by entry both are the same sum of the same 128 products in the same order of factors, plus the same bias
  entry, so no law of the extended reals beyond reading each side at an index is needed, and the precondition is
  never opened. The neighbour sum is one shared term of the three graph inputs.

  The three frames: the kernel's two are the generated frames; the reference's is its run with the result dropped.
  The idealization rewrote nothing, so `preserves` is trivial.
-/
import proofs.«171868_j56341380989305_1_alg».proof.Defs
import proofs.«171868_j56341380989305_1_alg».proof.Proof.Gen.Kernel
import proofs.«171868_j56341380989305_1_alg».proof.Proof.Gen.Kernel.Skeleton
import proofs.«171868_j56341380989305_1_alg».proof.Proof.Gen.Kernel.Launch
import proofs.«171868_j56341380989305_1_alg».proof.Proof.Gen.Kernel.Points
import proofs.«171868_j56341380989305_1_alg».proof.Proof.Gen.Kernel.Frame
import proofs.«171868_j56341380989305_1_alg».proof.Proof.Gen.KernelIdeal
import proofs.«171868_j56341380989305_1_alg».proof.Proof.Gen.KernelIdeal.Skeleton
import proofs.«171868_j56341380989305_1_alg».proof.Proof.Gen.KernelIdeal.Launch
import proofs.«171868_j56341380989305_1_alg».proof.Proof.Gen.KernelIdeal.Points
import proofs.«171868_j56341380989305_1_alg».proof.Proof.Gen.KernelIdeal.Frame
import proofs.«171868_j56341380989305_1_alg».proof.Proof.Gen.ReferenceIdeal
import proofs.«171868_j56341380989305_1_alg».proof.Proof.Gen.Pre_finite_inputs
import proofs.«171868_j56341380989305_1_alg».proof.Proof.Gen.KernelIdeal.Value
import proofs.«171868_j56341380989305_1_alg».proof.Proof.Gen.ReferenceIdeal.Run
import proofs.«171868_j56341380989305_1_alg».proof.Proof.Gen.ReferenceIdeal.Read
import proofs.«171868_j56341380989305_1_alg».proof.Proof.KernelValue
import proofs.«171868_j56341380989305_1_alg».proof.Proof.RefValue
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernel_ideal : Cert.frame_KernelIdeal := fun m ρ _ => Cert.KernelIdeal.Gen.frame m ρ

theorem frame_reference : Cert.frame_ReferenceIdeal := fun m ρ _ =>
  (θ_run Cert.ReferenceIdeal.defs _ _).mono (fun _ h c => (h c).2) (Cert.ReferenceIdeal.Value.run (F := Ideal) m ρ)

/-- The kernel's result array ends at the dense layer of the inputs' neighbour sum; the reference's result is the
    dense layer of ITS neighbour sum, the same term; the inputs agree. -/
theorem algebraic : Cert.algebraic_KernelIdeal_ReferenceIdeal := by
  intro m ρ m' ρ' _ hagree
  refine ⟨_, Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v13_eq, Cert.ReferenceIdeal.RefValue.result_eq,
    Cert.ReferenceIdeal.RefValue.neigh_eq, (hagree c).1, (hagree c).2.1, (hagree c).2.2.1, (hagree c).2.2.2.1,
    (hagree c).2.2.2.2]

theorem claim : Cert.Claim := ⟨Cert.Kernel.Gen.facts, Cert.KernelIdeal.Gen.facts, Cert.ReferenceIdeal.Gen.facts, Cert.Pre_finite_inputs.Gen.facts,
  frame_kernel, frame_kernel_ideal, frame_reference, trivial, algebraic⟩

end Cert.Proof

end
